-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x3x1024x1024 : Shape := ⟨4, ![8, 3, 1024, 1024]⟩
abbrev S1024 : Shape := ⟨1, ![1024]⟩
abbrev S_ : Shape := ⟨0, ![]⟩

class Facts : Prop where
  bcast_S_S8x3x1024x1024 : S_.BroadcastsInDim S8x3x1024x1024 (![] : Fin 0 → Fin S8x3x1024x1024.rank)
  reducesTo_S8x3x1024x1024_S_d0_1_2_3 : S8x3x1024x1024.ReducesTo [0, 1, 2, 3] S_
  h_S_ : 0 < S_.numel

variable [Facts]

def fn {F : FTy → Type} [FloatOps F] (main_arg0 : FVec F S8x3x1024x1024 .f32) (main_arg1 : IVec S1024 32) : IVec S_ 1 :=
  let main_v0 : FVec F S8x3x1024x1024 .f32 := Host.absf main_arg0
  let main_cst : FVec F S_ .f32 := constant S_ .f32 0x7F800000#32
  let main_v1 : FVec F S8x3x1024x1024 .f32 := broadcastInDim S8x3x1024x1024 ![] bcast_S_S8x3x1024x1024 main_cst
  let main_v2 : IVec S8x3x1024x1024 1 := cmpf .olt main_v0 main_v1
  let main_c : IVec S_ 1 := constantI S_ 1 1#1
  let main_v3 : IVec S_ 1 := (fun x v => Host.reduce IntOp.andi x v reducesTo_S8x3x1024x1024_S_d0_1_2_3 h_S_) main_v2 main_c
  main_v3
-- ==== Kernel.lean ====
abbrev S8x3x1024x1024 : Shape := ⟨4, ![8, 3, 1024, 1024]⟩
abbrev S1024 : Shape := ⟨1, ![1024]⟩
abbrev S24576x1024 : Shape := ⟨2, ![24576, 1024]⟩
abbrev S2048x1024 : Shape := ⟨2, ![2048, 1024]⟩

abbrev nBuf : Space → Nat
  | .hbm => 5
  | .vmem => 4
  | .smem => 0
  | _ => 0

abbrev bufTy : (tb : Table) → Fin (tcTables nBuf tb) → BufTy
  | .hbm, ⟨0, _⟩ => ⟨S8x3x1024x1024, .f32⟩
  | .hbm, ⟨1, _⟩ => ⟨S1024, .i32⟩
  | .hbm, ⟨2, _⟩ => ⟨S24576x1024, .f32⟩
  | .hbm, ⟨3, _⟩ => ⟨S24576x1024, .f32⟩
  | .hbm, ⟨4, _⟩ => ⟨S8x3x1024x1024, .f32⟩
  | .local _ .vmem, ⟨0, _⟩ => ⟨S2048x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | _, _ => ⟨S8x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  shapeCasts_S8x3x1024x1024_S24576x1024 : S8x3x1024x1024.ShapeCasts S24576x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  shapeCasts_S24576x1024_S8x3x1024x1024 : S24576x1024.ShapeCasts S8x3x1024x1024
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S24576x1024.size a
  hwx0_0 : ∀ i : grid0.Coords, EltTy.bits .f32 = 32 ∨ (Rect.block (s := S24576x1024) S2048x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S24576x1024.size a
  hwx0_1 : ∀ i : grid0.Coords, EltTy.bits .f32 = 32 ∨ (Rect.block (s := S24576x1024) S2048x1024.size (cc0_transform_1 i) (hinb0_1 i)).WholeWords (EltTy.packing .f32)

variable [Facts₀]

abbrev win0_0 : Pipeline.Window sig grid0 :=
  Pipeline.Window.ofSpec (Memref.whole main_v0) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S2048x1024.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where
  halias0_1 : Pipeline.Aliased win0 0 1

variable [Facts]
-- ==== ReferenceIdeal.lean ====
abbrev S8x3x1024x1024 : Shape := ⟨4, ![8, 3, 1024, 1024]⟩
abbrev S1024 : Shape := ⟨1, ![1024]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8x3x1024x1024, .f32⟩
  | .hbm, ⟨1, _⟩ => ⟨S1024, .i32⟩
  | .hbm, ⟨2, _⟩ => ⟨S_, .f32⟩
  | .hbm, ⟨3, _⟩ => ⟨S8x3x1024x1024, .f32⟩
  | .hbm, ⟨4, _⟩ => ⟨S8x3x1024x1024, .f32⟩
  | .hbm, ⟨5, _⟩ => ⟨S8x3x1024x1024, .f32⟩
  | _, _ => ⟨S8x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]

class Facts₀ : Prop where
  bcast_S_S8x3x1024x1024 : S_.BroadcastsInDim S8x3x1024x1024 (![] : Fin 0 → Fin S8x3x1024x1024.rank)

variable [Facts₀]

class Facts : Prop extends Facts₀ where

variable [Facts]
-- ==== Proof.KernelValue.lean ====
/-
  What the kernel leaves in its result array, as one function of the image.

  The image f32[8, 3, 1024, 1024] is laid out as 24576 rows of 1024; the grid's point t takes rows
  2048·t … 2048·t + 2047 (a block of 2048 × 1024), halves every element and rounds it down, and writes the block
  back to the same rows of the output. The twelve blocks tile the 24576 rows, so the output array is the
  row layout of the image with every element halved and rounded down; laid out back as [8, 3, 1024, 1024] it is
  the image itself with every element halved and rounded down, because the two layouts are inverse re-indexings
  and the arithmetic is elementwise.
-/
import proofs.«421864_j12137577578660_3_alg».proof.Proof.Gen.KernelIdeal.Frame
import Idealize.ShloMosaic.Lib.Pipeline.Value
import Idealize.ShloMosaic.Lib.StableHlo.Run

set_option maxRecDepth 16384

noncomputable section

namespace Cert.KernelIdeal.HalfFloor

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- An array with every element multiplied by one half and rounded down to an integral value. -/
abbrev halved {S : Shape} (a : S.Idx → Elt F .f32) : S.Idx → Elt F .f32 :=
  fun i => FloatOps.floor (FloatOps.mulf (a i) (FloatOps.ofBits .f32 0x3F000000#32))

/-- The body's stored value is the loaded block halved and rounded down: its shape cast is to the block's own shape. -/
theorem payload_eq (x0 : Vec F S2048x1024 .f32) : k0_pay1 x0 = halved x0 := by
  unfold k0_pay1
  rw [shapeCast_self]
  rfl

theorem zero_offsets : (![0, 0] : Fin 2 → Nat) = fun _ => 0 := funext fun a => by fin_cases a <;> rfl

/-- Input and output blocks sit at the same rows: both index maps send point t to block (t, 0), and t ≤ 11. -/
theorem index_facts : ∀ t : Fin cfg0.N, win0_0.index t (0 : Fin 2) = win0_1.index t (0 : Fin 2)
    ∧ win0_0.index t (1 : Fin 2) = win0_1.index t (1 : Fin 2)
    ∧ win0_1.index t (0 : Fin 2) ≤ 11
    ∧ win0_1.index t (1 : Fin 2) = 0 :=
  (by decide +kernel : ∀ t : Fin grid0.N, _)

/-- Every block row 0 … 11 is some point's. -/
theorem index_onto : ∀ q : Fin 12, ∃ t : Fin cfg0.N, win0_1.index t = ![q.val, 0] :=
  (by decide +kernel : ∀ q : Fin 12, ∃ t : Fin grid0.N, win0_1.index t = ![q.val, 0])

/-- What point t writes back is block t of the row layout halved and rounded down. -/
theorem flushed_eq (c : Dev nD) (t : Fin cfg0.N) :
    (dats m 0 c).flushed 1 t = ((cfg0.win 1).blk t).view.read (Elt F) (halved (V m c main_v0)) := by
  show (cfg0.win 1).cut (grid0.coords t) ((dats m 0 c).after 1 t) = _
  rw [after0_1]
  unfold out0_1
  rw [View.canon_unit_zero zero_offsets]
  simp only [View.ld_unit_zero (S := S2048x1024) zero_offsets]
  rw [payload_eq]
  obtain ⟨e0, e1, e2, e3⟩ := index_facts t
  funext j
  show FloatOps.floor (FloatOps.mulf (V m c main_v0 (((cfg0.win 0).blk t).view.emb j)) _) = FloatOps.floor (FloatOps.mulf (V m c main_v0 (((cfg0.win 1).blk t).view.emb j)) _)
  have h0 : ((cfg0.win 0).blk t).view.emb j = ((cfg0.win 1).blk t).view.emb j := by
    funext a; apply Fin.ext
    match a with
    | ⟨0, _⟩ => show win0_0.index t (0 : Fin 2) * 2048 + 1 * (j 0).val = win0_1.index t (0 : Fin 2) * 2048 + 1 * (j 0).val; omega
    | ⟨1, _⟩ => show win0_0.index t (1 : Fin 2) * 1024 + 1 * (j 1).val = win0_1.index t (1 : Fin 2) * 1024 + 1 * (j 1).val; omega
  rw [h0]

/-- An index of the output array is in point t's block iff each coordinate is in the block's range. -/
theorem mem_block (t : Fin cfg0.N) (i : S24576x1024.Idx) :
    i ∈ ((cfg0.win 1).blk t).view.set ↔ ∀ a : Fin 2, win0_1.index t a * S2048x1024.size a ≤ (i a).val ∧ (i a).val < win0_1.index t a * S2048x1024.size a + S2048x1024.size a := by
  show i ∈ ((View.whole main_v1).slice (win0_1.rect t)).set ↔ _
  rw [View.set_slice_whole, Rect.mem_set_unit]
  exact Iff.rfl

/-- Row r is in the block of the point whose block row is r / 2048: the twelve blocks tile the array. -/
theorem covered (i : S24576x1024.Idx) :
    ∃ t : Fin cfg0.N, (cfg0.win 1).flush t = true ∧ i ∈ ((cfg0.win 1).blk t).view.set := by
  have hi0 : (i 0).val < 24576 := (i 0).isLt
  have hi1 : (i 1).val < 1024 := (i 1).isLt
  obtain ⟨t, ht⟩ := index_onto ⟨(i 0).val / 2048, by omega⟩
  have q0 : win0_1.index t (0 : Fin 2) = (i 0).val / 2048 := congrFun ht 0
  have q1 : win0_1.index t (1 : Fin 2) = 0 := congrFun ht 1
  refine ⟨t, flush0_1 t, ?_⟩
  rw [mem_block]
  intro a
  match a with
  | ⟨0, _⟩ => show win0_1.index t (0 : Fin 2) * 2048 ≤ (i 0).val ∧ (i 0).val < win0_1.index t (0 : Fin 2) * 2048 + 2048; omega
  | ⟨1, _⟩ => show win0_1.index t (1 : Fin 2) * 1024 ≤ (i 1).val ∧ (i 1).val < win0_1.index t (1 : Fin 2) * 1024 + 1024; omega

/-- The output array after the region: the row layout of the image, as the region finds it, halved and rounded down. -/
theorem rows_after (c : Dev nD) : (dats m 0 c).arrAt 1 cfg0.N = halved (V m c main_v0) :=
  (dats m 0 c).arrAt_eq_of_cover 1 (halved (V m c main_v0)) (fun t _ => flushed_eq m c t) covered

/-- The row layout as the region finds it: the image's elements, in row-major order, at 24576 × 1024. -/
theorem rows_before (c : Dev nD) :
    (V m c main_v0 : S24576x1024.Idx → Elt F .f32)
      = shapeCast S24576x1024 (m ((c : Thread nD τ).loc main_arg0)) shapeCasts_S8x3x1024x1024_S24576x1024 := by
  show StableHlo.after hostOps0 (fun b => m (c, b)) (Proc.devRef .tc main_v0) = _
  after_results
  rfl

/-- The result: the output rows laid out back as [8, 3, 1024, 1024]. -/
theorem result_eq (c : Dev nD) :
    (Pipeline.afterTail₀ cfgs (dats m) 0 (V0 m) [hostOps1] c main_v2 : S8x3x1024x1024.Idx → Elt F .f32)
      = halved (m ((c : Thread nD τ).loc main_arg0)) := by
  unfold Pipeline.afterTail₀
  show StableHlo.after hostOps1 _ (Proc.devRef .tc main_v2) = _
  after_results
  have rows : Pipeline.withArrays (cfgs 0).spec c (V0 m c) (fun w => (dats m 0 c).arrAt w (cfgs 0).N) (Proc.devRef .tc main_v1)
      = halved (shapeCast S24576x1024 (m ((c : Thread nD τ).loc main_arg0)) shapeCasts_S8x3x1024x1024_S24576x1024) :=
    (Pipeline.withArrays_arr spec0 launch0.win.arr_inj c _ _ 1).trans ((rows_after m c).trans
      (congrArg (fun a : S24576x1024.Idx → Elt F .f32 => halved a) (rows_before m c)))
  rw [rows]
  funext i
  exact congrArg (fun x => FloatOps.floor (FloatOps.mulf x (FloatOps.ofBits .f32 0x3F000000#32)))
    (congrFun (shapeCast_shapeCast (m ((c : Thread nD τ).loc main_arg0)) shapeCasts_S8x3x1024x1024_S24576x1024
      shapeCasts_S24576x1024_S8x3x1024x1024) i)

/-- The kernel's run with its result named: every weakly fair execution ends with the result array holding the image
    with every element halved and rounded down, and the two argument arrays as launched. The result and the
    arguments are buffers the region does not stage, so the run's post gives each as the lines after the region leave it. -/
theorem run : θ_run defs (onTc (τ := τ) (main (F := F))) ⟨m, fun _ => 0, ρ⟩ fun r => ∀ c : Dev nD,
      r.2.mem ((c : Thread nD τ).loc main_v2) = halved (m ((c : Thread nD τ).loc main_arg0))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
      ⟨((h c).2 main_v2 (Pipeline.mem_restRefs_of main_v2 (by decide) (by decide))).trans (result_eq m c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelIdeal.HalfFloor

end
-- ==== Proof.ReferenceValue.lean ====
/-
  The reference's result, element by element: the image's element times one half, rounded down by the host's floor.
  The scalar one half is broadcast to every index, the product and the floor are elementwise, so the composed term
  read at an index is that arithmetic on the image's element at the same index.
-/
import proofs.«421864_j12137577578660_3_alg».proof.Proof.Gen.ReferenceIdeal.Run

noncomputable section

namespace Cert.ReferenceIdeal.HalfFloor

open Cert.ReferenceIdeal Cert.ReferenceIdeal.Gen Idealize.ShloMosaic

variable {F : FTy → Type} [FloatOps F]

/-- The reference's composed term read at an index. -/
theorem term_apply (x : FVec F S8x3x1024x1024 .f32) (i : S8x3x1024x1024.Idx) :
    Host.floor (mulf x (broadcastInDim S8x3x1024x1024 ![] bcast_S_S8x3x1024x1024 (constant S_ .f32 0x3F000000#32))) i
      = FloatOps.hostUnary .floor (FloatOps.mulf (x i) (FloatOps.ofBits .f32 0x3F000000#32)) := rfl

end Cert.ReferenceIdeal.HalfFloor

end
-- ==== Proof.lean ====
/-
  The kernel halves every element of an image f32[8, 3, 1024, 1024] and rounds it down: it lays the image out as
  24576 rows of 1024, runs twelve grid points over blocks of 2048 rows, each computing floor(x · 1/2) elementwise,
  and lays the rows out back. The reference computes floor(x · 1/2) on the image directly. Over the extended reals
  both roundings are the same function (the integer floor lifted, the infinities fixed) and one half is the same
  binary literal on both sides, so the two results agree element by element; no property of the inputs is used.
  The integer argument is read by neither program.
-/
import proofs.«421864_j12137577578660_3_alg».proof.Defs
import proofs.«421864_j12137577578660_3_alg».proof.Proof.Gen.Kernel
import proofs.«421864_j12137577578660_3_alg».proof.Proof.Gen.Kernel.Skeleton
import proofs.«421864_j12137577578660_3_alg».proof.Proof.Gen.Kernel.Launch
import proofs.«421864_j12137577578660_3_alg».proof.Proof.Gen.Kernel.Points
import proofs.«421864_j12137577578660_3_alg».proof.Proof.Gen.Kernel.Frame
import proofs.«421864_j12137577578660_3_alg».proof.Proof.Gen.KernelIdeal
import proofs.«421864_j12137577578660_3_alg».proof.Proof.Gen.KernelIdeal.Skeleton
import proofs.«421864_j12137577578660_3_alg».proof.Proof.Gen.KernelIdeal.Launch
import proofs.«421864_j12137577578660_3_alg».proof.Proof.Gen.KernelIdeal.Points
import proofs.«421864_j12137577578660_3_alg».proof.Proof.Gen.KernelIdeal.Frame
import proofs.«421864_j12137577578660_3_alg».proof.Proof.Gen.ReferenceIdeal
import proofs.«421864_j12137577578660_3_alg».proof.Proof.Gen.ReferenceIdeal.Run
import proofs.«421864_j12137577578660_3_alg».proof.Proof.Gen.Pre_finite_inputs
import proofs.«421864_j12137577578660_3_alg».proof.Proof.KernelValue
import proofs.«421864_j12137577578660_3_alg».proof.Proof.ReferenceValue
import Idealize.ShloMosaic.Adequacy
import Idealize.ShloMosaic.Init

noncomputable section

namespace Cert.Proof

open Idealize.ShloMosaic Idealize.SL.Sem

/-- The word-level kernel runs and leaves its arguments as launched. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as launched: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Over the extended reals the host's floor and the vector unit's floor are one function, so the reference's
    composed term is the image with every element halved and rounded down: the kernel's result. -/
theorem reference_eq (x : FVec Ideal Cert.ReferenceIdeal.S8x3x1024x1024 .f32) :
    Host.floor (mulf x (broadcastInDim Cert.ReferenceIdeal.S8x3x1024x1024 ![] Cert.ReferenceIdeal.Gen.bcast_S_S8x3x1024x1024
        (constant Cert.ReferenceIdeal.S_ .f32 0x3F000000#32)))
      = Cert.KernelIdeal.HalfFloor.halved (F := Ideal) x := by
  funext i
  rw [Cert.ReferenceIdeal.HalfFloor.term_apply]
  simp only [Cert.KernelIdeal.HalfFloor.halved, Ideal.hostUnary_floor_def, Ideal.floor_def]

/-- From memories agreeing on the arguments both programs end with the image halved and rounded down. -/
theorem algebraic : Cert.algebraic_KernelIdeal_ReferenceIdeal := by
  intro m ρ m' ρ' _ hagree
  refine ⟨fun c => Cert.KernelIdeal.HalfFloor.halved (m ((c.tc : Thread Cert.KernelIdeal.nD Cert.KernelIdeal.τ).loc Cert.KernelIdeal.main_arg0)),
    Cert.KernelIdeal.HalfFloor.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [(hagree c).1]
  exact reference_eq _

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
